-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x16x16 : Shape := ⟨4, ![64, 512, 16, 16]⟩
abbrev S_ : Shape := ⟨0, ![]⟩

class Facts : Prop where
  bcast_S_S64x512x16x16 : S_.BroadcastsInDim S64x512x16x16 (![] : Fin 0 → Fin S64x512x16x16.rank)
  reducesTo_S64x512x16x16_S_d0_1_2_3 : S64x512x16x16.ReducesTo [0, 1, 2, 3] S_
  h_S_ : 0 < S_.numel

variable [Facts]

def fn {F : FTy → Type} [FloatOps F] (main_arg0 : FVec F S64x512x16x16 .f32) : IVec S_ 1 :=
  let main_v0 : FVec F S64x512x16x16 .f32 := Host.absf main_arg0
  let main_cst : FVec F S_ .f32 := constant S_ .f32 0x7F800000#32
  let main_v1 : FVec F S64x512x16x16 .f32 := broadcastInDim S64x512x16x16 ![] bcast_S_S64x512x16x16 main_cst
  let main_v2 : IVec S64x512x16x16 1 := cmpf .olt main_v0 main_v1
  let main_c : IVec S_ 1 := constantI S_ 1 1#1
  let main_v3 : IVec S_ 1 := (fun x v => Host.reduce IntOp.andi x v reducesTo_S64x512x16x16_S_d0_1_2_3 h_S_) main_v2 main_c
  main_v3
-- ==== Kernel.lean ====
abbrev S64x512x16x16 : Shape := ⟨4, ![64, 512, 16, 16]⟩
abbrev S64x512x256 : Shape := ⟨3, ![64, 512, 256]⟩
abbrev S64x512x512 : Shape := ⟨3, ![64, 512, 512]⟩
abbrev S4x512x256 : Shape := ⟨3, ![4, 512, 256]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩

abbrev nBuf : Space → Nat
  | .hbm => 3
  | .vmem => 4
  | .smem => 0
  | _ => 0

abbrev bufTy : (tb : Table) → Fin (tcTables nBuf tb) → BufTy
  | .hbm, ⟨0, _⟩ => ⟨S64x512x16x16, .f32⟩
  | .hbm, ⟨1, _⟩ => ⟨S64x512x256, .f32⟩
  | .hbm, ⟨2, _⟩ => ⟨S64x512x512, .f32⟩
  | .local _ .vmem, ⟨0, _⟩ => ⟨S4x512x256, .f32⟩
  | .local _ .vmem, ⟨1, _⟩ => ⟨S4x512x256, .f32⟩
  | .local _ .vmem, ⟨2, _⟩ => ⟨S4x512x512, .f32⟩
  | .local _ .vmem, ⟨3, _⟩ => ⟨S4x512x512, .f32⟩
  | _, _ => ⟨S64x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x16x16_S64x512x256 : S64x512x16x16.ShapeCasts S64x512x256
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  bitsLt_bf16_f32 : FTy.bits .bf16 < FTy.bits .f32
  reduces_S4x512x256_S4x512 : S4x512x256.Reduces [2] S4x512
  shapeCasts_S4x512_S4x512x1 : S4x512.ShapeCasts S4x512x1
  transposes_S4x512x1_p0_2_1_S4x1x512 : S4x512x1.Transposes [0, 2, 1] S4x1x512
  broadcasts_S4x512x1_S4x512x512 : S4x512x1.Broadcasts S4x512x512
  broadcasts_S4x1x512_S4x512x512 : S4x1x512.Broadcasts S4x512x512
  inb_S4x512x512_S4x512x512_0_0_0 : ∀ a, (![0, 0, 0] : Fin 3 → Nat) a + S4x512x512.size a ≤ S4x512x512.size a
  h_S4x512x512 : 0 < S4x512x512.numel
  dot_S4x512x256_S4x512x256_S4x512x512_2_2_1_1_0_0_wf : DotDims.WF S4x512x256 S4x512x256 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S64x512x256.size a
  hwx0_0 : ∀ i : grid0.Coords, EltTy.bits .f32 = 32 ∨ (Rect.block (s := S64x512x256) S4x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S64x512x512.size a
  hwx0_1 : ∀ i : grid0.Coords, EltTy.bits .f32 = 32 ∨ (Rect.block (s := S64x512x512) S4x512x512.size (cc0_transform_1 i) (hinb0_1 i)).WholeWords (EltTy.packing .f32)

variable [Facts₀]

def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf

abbrev win0_0 : Pipeline.Window sig grid0 :=
  Pipeline.Window.ofSpec (Memref.whole main_v0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x16x16 : Shape := ⟨4, ![64, 512, 16, 16]⟩
abbrev S64x512x256 : Shape := ⟨3, ![64, 512, 256]⟩
abbrev S256x256 : Shape := ⟨2, ![256, 256]⟩
abbrev S_ : Shape := ⟨0, ![]⟩
abbrev S64x512x512 : Shape := ⟨3, ![64, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S64x512x16x16, .f32⟩
  | .hbm, ⟨1, _⟩ => ⟨S64x512x256, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S64x512x256, .f32⟩
  | .hbm, ⟨21, _⟩ => ⟨S64x512x512, .f32⟩
  | _, _ => ⟨S64x512x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S64x512x16x16_S64x512x256 : S64x512x16x16.ShapeCasts S64x512x256
  bcast_S_S256x256 : S_.BroadcastsInDim S256x256 (![] : Fin 0 → Fin S256x256.rank)
  dot_S64x512x256_S256x256_S64x512x256_2_0_01_1_n_n_wf : DotDims.WF S64x512x256 S256x256 S64x512x256 [2] [0] [0, 1] [1] [] []
  dot_S64x512x256_S64x512x256_S64x512x512_2_2_1_1_0_0_wf : DotDims.WF S64x512x256 S64x512x256 S64x512x512 [2] [2] [1] [1] [0] [0]

variable [Facts₀]

def dot_S64x512x256_S256x256_S64x512x256_2_0_01_1_n_n : DotDims S64x512x256 S256x256 S64x512x256 where
  lhsContracting := [2]
  rhsContracting := [0]
  lhsNonContracting := [0, 1]
  rhsNonContracting := [1]
  lhsBatch := []
  rhsBatch := []
  wf := dot_S64x512x256_S256x256_S64x512x256_2_0_01_1_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf

class Facts : Prop extends Facts₀ where

variable [Facts]
-- ==== Proof.Spec.lean ====
/-
  Covariance pooling of a stack of matrices, as one function on the extended reals, and the law that joins its
  two arrangements.

  For a stack x[b] of D rows of length M, the pooled matrix is
      y[b,d,e] = (1/M) * sum_k x[b,d,k] * x[b,e,k]  -  (1/M^2) * (sum_k x[b,d,k]) * (sum_k x[b,e,k]).
  The other arrangement first multiplies each row by the scaled centering matrix
      W[k,n] = (1/M) * [k = n] - (1/M * 1/M) * 1
  and then contracts with the rows again:
      y[b,d,e] = sum_n (sum_k x[b,d,k] * W[k,n]) * x[b,e,n].
  Over the reals the two agree by distributing the inner sum over the difference and collapsing the sum against
  the Kronecker delta.  On the extended reals distributivity fails at the infinities, so the law is stated for
  entries that are real numbers.  Here M = 256: 1/M = 2^-8 and 1/M^2 = 2^-16 are exact binary fractions, so the
  single-precision patterns 0x3B800000 and 0x37800000 denote exactly these reals, and 2^-8 * 2^-8 = 2^-16.
-/
import Idealize.ShloMosaic.PureOps.Ideal
import Idealize.ShloMosaic.Lib.ValueIdx

noncomputable section

namespace Cert.CovPool

open Idealize.ShloMosaic Idealize.ShloMosaic.ValueIdx

/-! ## The three literals -/

/-- The pattern 0x3B800000 denotes 2^-8 = 1/256. -/
theorem ofBits_inv256 : Ideal.ofBits .f32 0x3B800000#32 = ((1 / 256 : ℝ) : EReal) := by
  simp [Ideal.ofBits, Ideal.ieee, -EReal.coe_mul]; norm_num

/-- The pattern 0x37800000 denotes 2^-16 = 1/65536. -/
theorem ofBits_inv65536 : Ideal.ofBits .f32 0x37800000#32 = ((1 / 65536 : ℝ) : EReal) := by
  simp [Ideal.ofBits, Ideal.ieee, -EReal.coe_mul]; norm_num

/-- The pattern 0x3F800000 denotes 1. -/
theorem ofBits_one : Ideal.ofBits .f32 0x3F800000#32 = ((1 : ℝ) : EReal) := by
  simp [Ideal.ofBits, Ideal.ieee, -EReal.coe_mul]; norm_num

/-! ## Sums of reals inside the extended reals -/

/-- The coercion of a finite sum of reals is the sum of the coercions. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The pooled matrix -/

/-- Entry (d, e) of the pooled matrix of slab b: the scaled Gram entry minus the scaled product of the two row sums. -/
def covG {B D M : Nat} (x : (⟨3, ![B, D, M]⟩ : Shape).Idx → EReal) (b : Fin B) (d e : Fin D) : EReal :=
  Ideal.ofBits .f32 0x3B800000#32 * (∑ k : Fin M, x (ix3 b d k) * x (ix3 b e k))
    - Ideal.ofBits .f32 0x37800000#32 * ((∑ k : Fin M, x (ix3 b d k)) * (∑ k : Fin M, x (ix3 b e k)))

/-- The pooled stack as an array. -/
def covArr {B D M : Nat} (x : (⟨3, ![B, D, M]⟩ : Shape).Idx → EReal) : (⟨3, ![B, D, D]⟩ : Shape).Idx → EReal :=
  fun i => covG x (i 0) (i 1) (i 2)

theorem covArr_apply {B D M : Nat} (x : (⟨3, ![B, D, M]⟩ : Shape).Idx → EReal) (b : Fin B) (d e : Fin D) :
    covArr x (ix3 b d e) = covG x b d e := rfl

/-! ## The law over the reals -/

/-- Contracting a row against the scaled centering matrix: the delta picks the entry, the constant part sums the row. -/
theorem center_row {M : Nat} (a : Fin M → ℝ) (γ : ℝ) (n : Fin M) :
    ∑ k : Fin M, a k * (γ * (if k = n then (1 : ℝ) else 0) - γ * γ * 1) = γ * a n - γ * γ * ∑ k : Fin M, a k := by
  have h : ∀ k : Fin M, a k * (γ * (if k = n then (1 : ℝ) else 0) - γ * γ * 1)
      = γ * (if k = n then a k else 0) - γ * γ * a k := by
    intro k; split_ifs <;> ring
  simp only [h, Finset.sum_sub_distrib, ← Finset.mul_sum, Finset.sum_ite_eq', Finset.mem_univ, if_true]

/-- The two arrangements agree over the reals. -/
theorem real_law {M : Nat} (a b : Fin M → ℝ) (γ : ℝ) :
    ∑ n : Fin M, (∑ k : Fin M, a k * (γ * (if k = n then (1 : ℝ) else 0) - γ * γ * 1)) * b n
      = γ * (∑ k : Fin M, a k * b k) - γ * γ * ((∑ k : Fin M, a k) * (∑ k : Fin M, b k)) := by
  have h : ∀ n : Fin M, (∑ k : Fin M, a k * (γ * (if k = n then (1 : ℝ) else 0) - γ * γ * 1)) * b n
      = γ * (a n * b n) - γ * γ * ((∑ k : Fin M, a k) * b n) := by
    intro n; rw [center_row]; ring
  simp only [h, Finset.sum_sub_distrib, ← Finset.mul_sum]

/-! ## The law on the extended reals, for real entries -/

/-- With every entry of the stack a real number, contracting with the scaled centering matrix and then with the rows
    again gives the pooled matrix. The matrix W is given by its entries: 2^-8 on the delta minus (2^-8 * 2^-8) times one. -/
theorem centered_eq_covG {B D : Nat} (x : (⟨3, ![B, D, 256]⟩ : Shape).Idx → EReal) (hx : ∀ i, ∃ r : ℝ, x i = (r : EReal))
    (W : (⟨2, ![256, 256]⟩ : Shape).Idx → EReal)
    (hW : ∀ k n : Fin 256, W (ix2 k n) = Ideal.ofBits .f32 0x3B800000#32 * (((if k = n then (1 : ℝ) else 0) : ℝ) : EReal)
        - (Ideal.ofBits .f32 0x3B800000#32 * Ideal.ofBits .f32 0x3B800000#32) * Ideal.ofBits .f32 0x3F800000#32)
    (b : Fin B) (d e : Fin D) :
    ∑ n : Fin 256, (∑ k : Fin 256, x (ix3 b d k) * W (ix2 k n)) * x (ix3 b e n) = covG x b d e := by
  choose r hr using hx
  unfold covG
  simp only [hW, hr, ofBits_inv256, ofBits_inv65536, ofBits_one, ← EReal.coe_mul, ← EReal.coe_sub, coe_sum]
  rw [real_law]
  norm_num

end Cert.CovPool

end
-- ==== Proof.Finite.lean ====
/-
  Finite inputs are real numbers.

  The precondition says that the absolute value of every input entry compares below the pattern 0x7F800000, which
  denotes +infinity. On the extended reals |x| = max x (-x) < +infinity excludes both infinities, so every entry is
  the coercion of a real number. This is what the distributive law of the pooled matrix needs.
-/
import proofs.«112352_j5609227288680_1_alg».proof.Pre_finite_inputs
import proofs.«112352_j5609227288680_1_alg».proof.Proof.Gen.Pre_finite_inputs
import Idealize.ShloMosaic.PureOps.Ideal
import Idealize.ShloMosaic.Lib.ValueIdx
import Idealize.ShloMosaic.Lib.ReduceAll

noncomputable section

namespace Cert.CovPool

open Idealize.ShloMosaic

/-- A rank-zero shape has one index. -/
instance : Subsingleton Cert.Pre_finite_inputs.S_.Idx := ⟨fun a b => funext fun d => d.elim0⟩

/-- The pattern 0x7F800000 denotes +infinity. -/
theorem ofBits_inf : Ideal.ofBits .f32 0x7F800000#32 = (⊤ : EReal) := by
  simp [Ideal.ofBits, Ideal.ieee]

/-- Under the precondition every entry of the input is a real number. -/
theorem real_of_finite (x : FVec Ideal Cert.Pre_finite_inputs.S64x512x16x16 .f32)
    (h : Cert.Pre_finite_inputs.fn (F := Ideal) x = fun _ => 1#1) (i : Cert.Pre_finite_inputs.S64x512x16x16.Idx) :
    ∃ r : ℝ, x i = (r : EReal) := by
  have h0 := congrFun h ValueIdx.ix0
  dsimp only [Cert.Pre_finite_inputs.fn] at h0
  have hi := Host.reduce_andi_all _ _ _ _ _ h0 i
  have hlt : max (x i) (-(x i)) < (⊤ : EReal) := by
    have hc : Ideal.cmp .olt (max (x i) (-(x i))) (Ideal.ofBits .f32 0x7F800000#32) = 1#1 := hi
    rw [ofBits_inf] at hc
    have hb : BitVec.ofBool (decide (max (x i) (-(x i)) < (⊤ : EReal))) = 1#1 := hc
    cases hd : decide (max (x i) (-(x i)) < (⊤ : EReal)) with
    | true => exact of_decide_eq_true hd
    | false => rw [hd] at hb; exact absurd hb (by decide)
  generalize x i = a at hlt ⊢
  induction a using EReal.rec with
  | bot => simp at hlt
  | coe r => exact ⟨r, rfl⟩
  | top => simp at hlt

end Cert.CovPool

end
-- ==== Proof.RefValue.lean ====
/-
  The reference computes the pooled matrix.

  The reference builds the scaled centering matrix W[k,n] = 2^-8 * [k = n] - (2^-8 * 2^-8) * 1 from two iotas, a
  comparison widened to a float, and splatted constants; contracts the reshaped input with W over its last axis;
  and contracts the result with the reshaped input again, batched over the leading axis. Read index by index this
  is   sum_n (sum_k x[b,d,k] * W[k,n]) * x[b,e,n],   which for real entries is the pooled matrix (the law of the
  specification module).
-/
import proofs.«112352_j5609227288680_1_alg».proof.Proof.Gen.ReferenceIdeal.Read
import proofs.«112352_j5609227288680_1_alg».proof.Proof.Spec
import Idealize.ShloMosaic.Lib.Affine

noncomputable section

namespace Cert.CovPool.Ref

open Cert.ReferenceIdeal Cert.ReferenceIdeal.Gen Cert.ReferenceIdeal.Read Idealize.ShloMosaic Idealize.ShloMosaic.ValueIdx
open Cert.CovPool

/-- The comparison of the row iota with the column iota, widened to a float, is the Kronecker delta. -/
theorem delta_entry (k n : Fin 256) :
    (FloatOps.uitofp (F := Ideal) .f32 (IntOp.cmpi .eq (IntOp.addi (BitVec.ofNat 32 k.val) 0#32) (BitVec.ofNat 32 n.val)) : EReal)
      = (((if k = n then (1 : ℝ) else 0) : ℝ) : EReal) := by
  show (((IntOp.cmpi .eq (IntOp.addi (BitVec.ofNat 32 k.val) 0#32) (BitVec.ofNat 32 n.val)).toNat : ℝ) : EReal) = _
  have ha : IntOp.addi (BitVec.ofNat 32 k.val) 0#32 = BitVec.ofNat 32 k.val := by simp [IntOp.addi]
  rw [ha]
  by_cases hkn : k = n
  · subst hkn
    rw [if_pos rfl, (IntOp.cmpi_eq).2 rfl]; simp
  · rw [if_neg hkn]
    have hne : ¬ (BitVec.ofNat 32 k.val = BitVec.ofNat 32 n.val) := by
      intro he
      have h := congrArg BitVec.toNat he
      simp only [BitVec.toNat_ofNat] at h
      have hk := k.isLt; have hn := n.isLt
      exact hkn (Fin.ext (by omega))
    have hz : IntOp.cmpi .eq (BitVec.ofNat 32 k.val) (BitVec.ofNat 32 n.val) = 0#1 :=
      ValueIdx.eq_zero_of_ne_one fun h => hne (IntOp.cmpi_eq.1 h)
    rw [hz]; simp

/-- Entry (k, n) of the matrix the reference contracts with: 2^-8 on the diagonal part, minus (2^-8 * 2^-8) * 1. -/
theorem centering_entry (k n : Fin 256) :
    val_main_v13 (F := Ideal) (ix2 k n)
      = Ideal.ofBits .f32 0x3B800000#32 * (((if k = n then (1 : ℝ) else 0) : ℝ) : EReal)
        - (Ideal.ofBits .f32 0x3B800000#32 * Ideal.ofBits .f32 0x3B800000#32) * Ideal.ofBits .f32 0x3F800000#32 := by
  rw [val_main_v13_apply, val_main_v8_apply, val_main_v12_apply, val_main_v7_apply, val_main_cst_apply, val_main_v6_apply,
    val_main_v5_apply, val_main_v4_apply, val_main_v1_apply, val_main_v3_apply, val_main_c_apply, val_main_v2_apply,
    val_main_v11_apply, val_main_v9_apply, val_main_cst_0_apply, val_main_cst_1_apply, val_main_v10_apply,
    val_main_cst_2_apply, ← delta_entry k n]
  rfl

/-- The reference's result is the pooled stack of the reshaped input, when every input entry is a real number. -/
theorem value (x0 : (⟨S64x512x16x16, .f32⟩ : BufTy).Contents (Elt Ideal)) (hx : ∀ i, ∃ r : ℝ, x0 i = (r : EReal)) :
    val_main_v15 (F := Ideal) x0 = covArr (B := 64) (D := 512) (M := 256) (val_main_v0 (F := Ideal) x0) := by
  funext i
  obtain ⟨b, d, e, rfl⟩ : ∃ (b : Fin 64) (d e : Fin 512), i = ix3 b d e := ⟨i 0, i 1, i 2, eq_ix3 i⟩
  rw [covArr_apply, val_main_v15_apply]
  have hl : ∀ k : Fin 256, lidx_main_v15 (ix3 b d e) k = ix3 b d k := fun k =>
    funext fun a => Fin.ext (by match a with | ⟨0, _⟩ => rfl | ⟨1, _⟩ => rfl | ⟨2, _⟩ => rfl)
  have hr : ∀ k : Fin 256, ridx_main_v15 (ix3 b d e) k = ix3 b e k := fun k =>
    funext fun a => Fin.ext (by match a with | ⟨0, _⟩ => rfl | ⟨1, _⟩ => rfl | ⟨2, _⟩ => rfl)
  have hl14 : ∀ n k : Fin 256, lidx_main_v14 (ix3 b d n) k = ix3 b d k := fun n k =>
    funext fun a => Fin.ext (by match a with | ⟨0, _⟩ => rfl | ⟨1, _⟩ => rfl | ⟨2, _⟩ => rfl)
  have hr14 : ∀ n k : Fin 256, ridx_main_v14 (ix3 b d n) k = ix2 k n := fun n k =>
    funext fun a => Fin.ext (by match a with | ⟨0, _⟩ => rfl | ⟨1, _⟩ => rfl)
  simp only [hl, hr, val_main_v14_apply, hl14, hr14]
  exact centered_eq_covG (B := 64) (D := 512) (val_main_v0 (F := Ideal) x0)
    (fun j => by rw [val_main_v0_apply]; exact hx _) (val_main_v13 (F := Ideal)) centering_entry b d e

end Cert.CovPool.Ref

end
-- ==== Proof.KernelValue.lean ====
/-
  One grid point's stored block, index by index.

  The body loads a block x of 4 slabs (each 512 rows of length 256) and stores
      2^-8 * (x x^T per slab)  -  2^-16 * (s * s^T per slab),    s[p,d] = sum_k x[p,d,k].
  The Gram part is a batched contraction over the last axis into a zero accumulator (the narrowing of the operands
  to a shorter format is the identity on the extended reals). The outer product of the row sums is spelt with layout
  operations: the sums [4,512] are recast to a column [4,512,1], transposed to a row [4,1,512], and both are
  broadcast to [4,512,512] before the pointwise product. Read at (p, d, e) the column gives s[p,d] and the row s[p,e].
  So entry (p, d, e) of the stored block is the pooled matrix entry of slab p.
-/
import proofs.«112352_j5609227288680_1_alg».proof.Proof.Gen.KernelIdeal.Skeleton
import proofs.«112352_j5609227288680_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.CovPool.Kern

open Cert.KernelIdeal Cert.KernelIdeal.Gen Idealize.ShloMosaic Idealize.ShloMosaic.ValueIdx
open Cert.CovPool

/-! ## The batched contraction's operand indices -/

theorem lhs_0 (i : S4x512x512.Idx) (q : dot_S4x512x256_S4x512x256_S4x512x512_2_2_1_1_0_0.contr.Idx) :
    (dot_S4x512x256_S4x512x256_S4x512x512_2_2_1_1_0_0.lhsIdx i q 0).val = (i 0).val := by
  unfold DotDims.lhsIdx
  rw [dif_pos (show (0 : Fin S4x512x256.rank) ∈ dot_S4x512x256_S4x512x256_S4x512x512_2_2_1_1_0_0.lhsBatch by decide)]
  rfl
theorem lhs_1 (i : S4x512x512.Idx) (q : dot_S4x512x256_S4x512x256_S4x512x512_2_2_1_1_0_0.contr.Idx) :
    (dot_S4x512x256_S4x512x256_S4x512x512_2_2_1_1_0_0.lhsIdx i q 1).val = (i 1).val := by
  unfold DotDims.lhsIdx
  rw [dif_neg (show ¬(1 : Fin S4x512x256.rank) ∈ dot_S4x512x256_S4x512x256_S4x512x512_2_2_1_1_0_0.lhsBatch by decide), dif_pos (show (1 : Fin S4x512x256.rank) ∈ dot_S4x512x256_S4x512x256_S4x512x512_2_2_1_1_0_0.lhsNonContracting by decide)]
  rfl
theorem lhs_2 (i : S4x512x512.Idx) (q : dot_S4x512x256_S4x512x256_S4x512x512_2_2_1_1_0_0.contr.Idx) :
    (dot_S4x512x256_S4x512x256_S4x512x512_2_2_1_1_0_0.lhsIdx i q 2).val = (q ⟨0, by decide⟩).val :=
  dot_S4x512x256_S4x512x256_S4x512x512_2_2_1_1_0_0.lhsIdx_val_of_single rfl i q
theorem rhs_0 (i : S4x512x512.Idx) (q : dot_S4x512x256_S4x512x256_S4x512x512_2_2_1_1_0_0.contr.Idx) :
    (dot_S4x512x256_S4x512x256_S4x512x512_2_2_1_1_0_0.rhsIdx i q 0).val = (i 0).val := by
  unfold DotDims.rhsIdx
  rw [dif_pos (show (0 : Fin S4x512x256.rank) ∈ dot_S4x512x256_S4x512x256_S4x512x512_2_2_1_1_0_0.rhsBatch by decide)]
  rfl
theorem rhs_1 (i : S4x512x512.Idx) (q : dot_S4x512x256_S4x512x256_S4x512x512_2_2_1_1_0_0.contr.Idx) :
    (dot_S4x512x256_S4x512x256_S4x512x512_2_2_1_1_0_0.rhsIdx i q 1).val = (i 2).val := by
  unfold DotDims.rhsIdx
  rw [dif_neg (show ¬(1 : Fin S4x512x256.rank) ∈ dot_S4x512x256_S4x512x256_S4x512x512_2_2_1_1_0_0.rhsBatch by decide), dif_pos (show (1 : Fin S4x512x256.rank) ∈ dot_S4x512x256_S4x512x256_S4x512x512_2_2_1_1_0_0.rhsNonContracting by decide)]
  rfl
theorem rhs_2 (i : S4x512x512.Idx) (q : dot_S4x512x256_S4x512x256_S4x512x512_2_2_1_1_0_0.contr.Idx) :
    (dot_S4x512x256_S4x512x256_S4x512x512_2_2_1_1_0_0.rhsIdx i q 2).val = (q ⟨0, by decide⟩).val :=
  dot_S4x512x256_S4x512x256_S4x512x512_2_2_1_1_0_0.rhsIdx_val_of_single rfl i q

/-- The contraction into a zero accumulator, at (p, d, e): the Gram entry of rows d and e of slab p. -/
theorem gram_apply (l r : FVec Ideal S4x512x256 .bf16) (p : Fin 4) (d e : Fin 512) :
    matmul dot_S4x512x256_S4x512x256_S4x512x512_2_2_1_1_0_0 none l r (constant (F := Ideal) S4x512x512 .f32 0x00000000#32) (ix3 p d e)
      = ∑ k : Fin 256, l (ix3 p d k) * r (ix3 p e k) := by
  simp only [matmul]
  rw [Ideal.matmul_constant_zero_apply, ← Equiv.sum_comp (ValueIdx.contrEquiv1 dot_S4x512x256_S4x512x256_S4x512x512_2_2_1_1_0_0 256 rfl rfl).symm]
  refine Finset.sum_congr rfl fun k _ => ?_
  have hk := ValueIdx.contrEquiv1_symm_val dot_S4x512x256_S4x512x256_S4x512x512_2_2_1_1_0_0 256 rfl rfl k
  have el : dot_S4x512x256_S4x512x256_S4x512x512_2_2_1_1_0_0.lhsIdx (ix3 p d e) ((ValueIdx.contrEquiv1 dot_S4x512x256_S4x512x256_S4x512x512_2_2_1_1_0_0 256 rfl rfl).symm k) = ix3 p d k := funext fun a => Fin.ext (by
    match a with
    | ⟨0, _⟩ => exact lhs_0 _ _
    | ⟨1, _⟩ => exact lhs_1 _ _
    | ⟨2, _⟩ => exact (lhs_2 _ _).trans hk)
  have er : dot_S4x512x256_S4x512x256_S4x512x512_2_2_1_1_0_0.rhsIdx (ix3 p d e) ((ValueIdx.contrEquiv1 dot_S4x512x256_S4x512x256_S4x512x512_2_2_1_1_0_0 256 rfl rfl).symm k) = ix3 p e k := funext fun a => Fin.ext (by
    match a with
    | ⟨0, _⟩ => exact rhs_0 _ _
    | ⟨1, _⟩ => exact rhs_1 _ _
    | ⟨2, _⟩ => exact (rhs_2 _ _).trans hk)
  rw [el, er]

/-! ## The row sums and their two layouts -/

/-- The lane reduction at (p, d): the sum of row d of slab p. -/
theorem rowsum_apply (v : FVec Ideal S4x512x256 .f32) (hφ : FKind.Formats .f32) (hacc : (0x00000000#32 : BitVec 32) = 0x00000000#32)
    (p : Fin 4) (d : Fin 512) :
    multiReduction .add [2] S4x512 v 0x00000000#32 reduces_S4x512x256_S4x512 hφ hacc (ix2 p d) = ∑ k : Fin 256, v (ix3 p d k) := by
  refine (Ideal.multiReduction_add_single v 0x00000000#32 reduces_S4x512x256_S4x512 hφ hacc (ix2 p d)).trans ?_
  refine Finset.sum_congr rfl fun k _ => congrArg v (funext fun a => Fin.ext ?_)
  match a with
  | ⟨0, _⟩ => rfl
  | ⟨1, _⟩ => rfl
  | ⟨2, _⟩ => rfl

/-- The sums recast as a column: [4,512] to [4,512,1]. -/
theorem column_apply {α : Type} (x : S4x512.Idx → α) (h : S4x512.ShapeCasts S4x512x1) (p : Fin 4) (d : Fin 512) (z : Fin 1) :
    shapeCast S4x512x1 x h (ix3 p d z) = x (ix2 p d) :=
  shapeCast_apply x h _ _ (by
    rw [Shape.rowMajor_val_two, Shape.rowMajor_val_three]
    show p.val * 512 + d.val = (p.val * 512 + d.val) * 1 + z.val
    have := z.isLt; omega)

/-- The column transposed to a row: [4,512,1] to [4,1,512]. -/
theorem row_apply {α : Type} (x : S4x512x1.Idx → α) (h : S4x512x1.Transposes [0, 2, 1] S4x1x512) (p : Fin 4) (z : Fin 1) (e : Fin 512) :
    transpose S4x1x512 [0, 2, 1] x h (ix3 p z e) = x (ix3 p e z) :=
  transpose_ix3_021_apply x h p z e

/-- The column broadcast along the last axis. -/
theorem column_bcast_apply {α : Type} (x : S4x512x1.Idx → α) (h : S4x512x1.Broadcasts S4x512x512) (p : Fin 4) (d e : Fin 512) :
    broadcastTo S4x512x512 x h (ix3 p d e) = x (ix3 p d (0 : Fin 1)) :=
  broadcastTo_apply x h _ _ fun a => by
    match a with
    | ⟨0, _⟩ => rfl
    | ⟨1, _⟩ => rfl
    | ⟨2, _⟩ => rfl

/-- The row broadcast along the middle axis. -/
theorem row_bcast_apply {α : Type} (x : S4x1x512.Idx → α) (h : S4x1x512.Broadcasts S4x512x512) (p : Fin 4) (d e : Fin 512) :
    broadcastTo S4x512x512 x h (ix3 p d e) = x (ix3 p (0 : Fin 1) e) :=
  broadcastTo_apply x h _ _ fun a => by
    match a with
    | ⟨0, _⟩ => rfl
    | ⟨1, _⟩ => rfl
    | ⟨2, _⟩ => rfl

/-! ## The stored block -/

/-- Entry (p, d, e) of what the body stores is the pooled matrix entry of slab p of the loaded block. -/
theorem payload_apply (v0 : FVec Ideal S4x512x256 .f32) (p : Fin 4) (d e : Fin 512) :
    k0_pay1 (F := Ideal) v0 (ix3 p d e) = covG (B := 4) (D := 512) (M := 256) v0 p d e := by
  unfold k0_pay1 covG
  dsimp only
  simp only [shapeCast_self, subf_apply, mulf_apply, broadcast_apply]
  rw [gram_apply, column_bcast_apply, row_bcast_apply, row_apply, column_apply, column_apply, rowsum_apply, rowsum_apply]
  rfl

end Cert.CovPool.Kern

end
-- ==== Proof.KernelRun.lean ====
/-
  From the stored blocks to the whole result array.

  The grid has 16 points; point t loads slabs 4t .. 4t+3 of the reshaped input (all rows, all columns) and writes
  slabs 4t .. 4t+3 of the result. By the block lemma, entry (p, d, e) of what point t writes is the pooled matrix
  entry of slab p of its input block, and slab p of that block is slab 4t + p of the array: so what point t writes
  back is block t of the pooled stack of the whole reshaped input. Slab b of the result lies in the block of point
  b / 4, so the 16 blocks cover the result, and the result array ends as the pooled stack. The reshaped input the
  region finds is the host's reshape of the argument.
-/
import proofs.«112352_j5609227288680_1_alg».proof.Proof.Gen.KernelIdeal.Frame
import proofs.«112352_j5609227288680_1_alg».proof.Proof.Gen.KernelIdeal.Value
import proofs.«112352_j5609227288680_1_alg».proof.Proof.KernelValue
import Idealize.ShloMosaic.Lib.Pipeline.Value
import Idealize.ShloMosaic.Lib.StableHlo.Run

noncomputable section

namespace Cert.CovPool.KernRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.CovPool

variable (m : (ℓ : Loc nD τ sig) → Buf (Elt Ideal) ℓ) (ρ : Dev nD → PrngReg)

theorem hz : (![0, 0, 0] : Fin 3 → Nat) = fun _ => 0 := funext fun a => by fin_cases a <;> rfl

/-- The reshaped input as the region finds it. -/
abbrev xarr (c : Dev nD) : S64x512x256.Idx → EReal := V m c main_v0

/-- It is the host's reshape of the argument. -/
theorem xarr_eq (c : Dev nD) :
    xarr m c = shapeCast S64x512x256 (m ((c : Thread nD τ).loc main_arg0)) shapeCasts_S64x512x16x16_S64x512x256 := by
  dsimp only [xarr, V, hostOps0]; after_results; rfl

/-- Both windows move along the leading axis with the grid point and sit at block 0 on the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Slab p of the input block of point t is slab 4t + p of the reshaped input. -/
theorem xblk_apply (c : Dev nD) (t : Fin cfg0.N) (p : Fin 4) (d : Fin 512) (k : Fin 256) (b : Fin 64)
    (hb : b.val = 4 * t.val + p.val) :
    (iblk m c 0 t : S4x512x256.Idx → EReal) (ix3 p d k) = xarr m c (ix3 b d k) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t 0 * 4 + 1 * p.val = b.val; rw [e0, hb]; omega
  | ⟨1, _⟩ => show win0_0.index t 1 * 512 + 1 * d.val = d.val; rw [e1]; omega
  | ⟨2, _⟩ => show win0_0.index t 2 * 256 + 1 * k.val = k.val; rw [e2]; omega

/-- An entry of what point t stores is the pooled entry of the array at the index 4t slabs further on. -/
theorem block_entry (c : Dev nD) (t : Fin cfg0.N) (j : S4x512x512.Idx) (i : S64x512x512.Idx)
    (h0 : (i 0).val = 4 * t.val + (j 0).val) (h1 : (i 1).val = (j 1).val) (h2 : (i 2).val = (j 2).val) :
    k0_pay1 (F := Ideal) (iblk m c 0 t) j = covArr (B := 64) (D := 512) (M := 256) (xarr m c) i := by
  obtain ⟨p, d, e, rfl⟩ : ∃ (p : Fin 4) (d e : Fin 512), j = ix3 p d e := ⟨j 0, j 1, j 2, eq_ix3 j⟩
  obtain ⟨b, d', e', rfl⟩ : ∃ (b : Fin 64) (d' e' : Fin 512), i = ix3 b d' e' := ⟨i 0, i 1, i 2, eq_ix3 i⟩
  have hd : d' = d := Fin.ext h1
  have he : e' = e := Fin.ext h2
  subst hd he
  have hb : b.val = 4 * t.val + p.val := h0
  refine (Kern.payload_apply (iblk m c 0 t) p d' e').trans ?_
  rw [covArr_apply]
  unfold covG
  simp only [fun (d : Fin 512) (k : Fin 256) => xblk_apply m c t p d k b hb]

/-- What point t writes back is block t of the pooled stack of the reshaped input. -/
theorem flushed_eq (c : Dev nD) (t : Fin cfg0.N) :
    (dats m 0 c).flushed 1 t
      = ((cfg0.win 1).blk t).view.read (Elt Ideal) (covArr (B := 64) (D := 512) (M := 256) (xarr m c)) := by
  rw [Cert.KernelIdeal.Value.flushed1]
  unfold out0_1
  rw [View.canon_unit_zero hz]
  simp only [View.ld_unit_zero (S := S4x512x256) hz]
  obtain ⟨-, -, -, e0, e1, e2⟩ := idx_facts t
  funext j
  show k0_pay1 (F := Ideal) (iblk m c 0 t) j
    = covArr (B := 64) (D := 512) (M := 256) (xarr m c) (((cfg0.win 1).blk t).view.emb j)
  refine block_entry m c t j _ ?_ ?_ ?_
  · show win0_1.index t 0 * 4 + 1 * (j 0).val = 4 * t.val + (j 0).val; rw [e0]; omega
  · show win0_1.index t 1 * 512 + 1 * (j 1).val = (j 1).val; rw [e1]; omega
  · show win0_1.index t 2 * 512 + 1 * (j 2).val = (j 2).val; rw [e2]; omega

/-- An index of the result is in point t's block iff each coordinate is in the block's range on its axis. -/
theorem mem_blk (t : Fin cfg0.N) (i : S64x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v1).slice (win0_1.rect t)).set ↔ _
  rw [View.set_slice_whole, Rect.mem_set_unit]
  exact Iff.rfl

/-- Slab b lies in the block of point b / 4: the blocks cover the result. -/
theorem cover (i : S64x512x512.Idx) :
    ∃ t : Fin cfg0.N, (cfg0.win 1).flush t = true ∧ i ∈ ((cfg0.win 1).blk t).view.set := by
  have h0 : (i 0).val < 64 := (i 0).isLt
  have h1 : (i 1).val < 512 := (i 1).isLt
  have h2 : (i 2).val < 512 := (i 2).isLt
  obtain ⟨t, ht⟩ : ∃ t : Fin cfg0.N, t.val = (i 0).val / 4 :=
    ⟨⟨(i 0).val / 4, (show (i 0).val / 4 < 16 by omega).trans_eq N_0.symm⟩, rfl⟩
  obtain ⟨-, -, -, e0, e1, e2⟩ := idx_facts t
  refine ⟨t, flush0_1 t, ?_⟩
  rw [mem_blk]
  intro a
  match a with
  | ⟨0, _⟩ => show win0_1.index t 0 * 4 ≤ (i 0).val ∧ (i 0).val < win0_1.index t 0 * 4 + 4; rw [e0, ht]; omega
  | ⟨1, _⟩ => show win0_1.index t 1 * 512 ≤ (i 1).val ∧ (i 1).val < win0_1.index t 1 * 512 + 512; rw [e1]; omega
  | ⟨2, _⟩ => show win0_1.index t 2 * 512 ≤ (i 2).val ∧ (i 2).val < win0_1.index t 2 * 512 + 512; rw [e2]; omega

/-- The result array after the run is the pooled stack of the reshaped input. -/
theorem final (c : Dev nD) :
    (dats m 0 c).arrAt 1 cfg0.N = covArr (B := 64) (D := 512) (M := 256) (xarr m c) :=
  (dats m 0 c).arrAt_eq_of_cover 1 (covArr (B := 64) (D := 512) (M := 256) (xarr m c))
    (fun t _ => flushed_eq m c t) cover

/-- The run: the result at the pooled stack of the reshaped argument, the argument unchanged. -/
theorem run : θ_run defs (onTc (τ := τ) (main (F := Ideal))) ⟨m, fun _ => 0, ρ⟩ fun r => ∀ c : Dev nD,
      r.2.mem ((c : Thread nD τ).loc main_v1)
        = covArr (B := 64) (D := 512) (M := 256)
            (shapeCast S64x512x256 (m ((c : Thread nD τ).loc main_arg0)) shapeCasts_S64x512x16x16_S64x512x256)
      ∧ r.2.mem ((c : Thread nD τ).loc main_arg0) = m ((c : Thread nD τ).loc main_arg0) :=
  (θ_run defs _ _).mono (fun r h c => ⟨(h c).1.trans ((final m c).trans (by rw [xarr_eq])), (h c).2⟩)
    (Cert.KernelIdeal.Value.run_blocks m ρ)

end Cert.CovPool.KernRun

end
-- ==== Proof.lean ====
/-
  Covariance pooling, y[b] = x[b] C x[b]^T with the scaled centering matrix C = (1/M) I - (1/M^2) 1 1^T, M = 256,
  for a stack x of 64 matrices of 512 rows (the 16 x 16 trailing axes of the input flattened to length 256).

  The kernel never forms C: per grid point it takes four matrices of the stack and stores
      2^-8 * x x^T  -  2^-16 * s s^T,     s = the row sums of x,
  the Gram product as a batched contraction and the outer product of the row sums through a column, its transpose
  and two broadcasts. The reference forms C from iotas and constants and contracts twice. On the extended reals the
  two agree when every entry is a real number: distribute the first contraction over the difference, collapse the sum
  against the Kronecker delta, and use 2^-8 * 2^-8 = 2^-16. The precondition (every input entry of absolute value
  below +infinity) is exactly what makes the entries real.

  Modules: the pooled matrix and the law (Spec), finiteness (Finite), the reference read index by index (RefValue),
  one stored block index by index (KernelValue), the blocks assembled into the result array (KernelRun). Here: the
  three frames, the idealization (nothing was rewritten), and the two runs set side by side.
-/
import proofs.«112352_j5609227288680_1_alg».proof.Defs
import proofs.«112352_j5609227288680_1_alg».proof.Proof.Gen.Kernel
import proofs.«112352_j5609227288680_1_alg».proof.Proof.Gen.Kernel.Skeleton
import proofs.«112352_j5609227288680_1_alg».proof.Proof.Gen.Kernel.Launch
import proofs.«112352_j5609227288680_1_alg».proof.Proof.Gen.Kernel.Points
import proofs.«112352_j5609227288680_1_alg».proof.Proof.Gen.Kernel.Frame
import proofs.«112352_j5609227288680_1_alg».proof.Proof.Gen.KernelIdeal
import proofs.«112352_j5609227288680_1_alg».proof.Proof.Gen.KernelIdeal.Skeleton
import proofs.«112352_j5609227288680_1_alg».proof.Proof.Gen.KernelIdeal.Launch
import proofs.«112352_j5609227288680_1_alg».proof.Proof.Gen.KernelIdeal.Points
import proofs.«112352_j5609227288680_1_alg».proof.Proof.Gen.KernelIdeal.Frame
import proofs.«112352_j5609227288680_1_alg».proof.Proof.Gen.ReferenceIdeal
import proofs.«112352_j5609227288680_1_alg».proof.Proof.Gen.Pre_finite_inputs
import proofs.«112352_j5609227288680_1_alg».proof.Proof.Gen.KernelIdeal.Value
import proofs.«112352_j5609227288680_1_alg».proof.Proof.Gen.ReferenceIdeal.Run
import proofs.«112352_j5609227288680_1_alg».proof.Proof.Gen.ReferenceIdeal.Read
import proofs.«112352_j5609227288680_1_alg».proof.Proof.Spec
import proofs.«112352_j5609227288680_1_alg».proof.Proof.Finite
import proofs.«112352_j5609227288680_1_alg».proof.Proof.RefValue
import proofs.«112352_j5609227288680_1_alg».proof.Proof.KernelValue
import proofs.«112352_j5609227288680_1_alg».proof.Proof.KernelRun
import Idealize.ShloMosaic.Adequacy
import Idealize.ShloMosaic.Init

noncomputable section

namespace Cert.Proof

open Idealize.ShloMosaic Idealize.ShloMosaic.TcCoe Idealize.SL.Sem

namespace CovClaims

/-- The word-level kernel runs and leaves its argument as it was. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- Both programs end with the result array at the pooled stack of the reshaped argument: the kernel block by block,
    the reference by the law, its entries being real numbers under the precondition. -/
theorem algebraic : Cert.algebraic_KernelIdeal_ReferenceIdeal := by
  intro m ρ m' ρ' hpre hagree
  refine ⟨_, Cert.CovPool.KernRun.run m ρ, ?_⟩
  refine (θ_run Cert.ReferenceIdeal.defs _ _).mono (fun _ h c => ⟨(h c).1.trans ?_, (h c).2⟩)
    (Cert.ReferenceIdeal.Value.run (F := Ideal) m' ρ')
  have hx : ∀ i, ∃ r : ℝ,
      m' ((c.tc : Thread Cert.ReferenceIdeal.nD Cert.ReferenceIdeal.τ).loc Cert.ReferenceIdeal.main_arg0) i = (r : EReal) := by
    rw [hagree c]
    exact Cert.CovPool.real_of_finite _ (hpre c)
  rw [Cert.ReferenceIdeal.Read.val_main_v15_eq, Cert.CovPool.Ref.value _ hx, hagree c]
  rfl

end CovClaims

theorem claim : Cert.Claim := ⟨Cert.Kernel.Gen.facts, Cert.KernelIdeal.Gen.facts, Cert.ReferenceIdeal.Gen.facts, Cert.Pre_finite_inputs.Gen.facts,
  CovClaims.frame_k, CovClaims.frame_ki, CovClaims.frame_ri, CovClaims.preserves, CovClaims.algebraic⟩

end Cert.Proof

end
